-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S4096x2048 : Shape := ⟨2, ![4096, 2048]⟩
abbrev S2048 : Shape := ⟨1, ![2048]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16x1024x2048 .f32) (main_arg1 : FVec F S4096x2048 .f32) (main_arg2 : FVec F S2048 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16x1024x2048 : Shape := ⟨3, ![16, 1024, 2048]⟩
abbrev S4096x2048 : Shape := ⟨2, ![4096, 2048]⟩
abbrev S2048 : Shape := ⟨1, ![2048]⟩
abbrev S16384x2048 : Shape := ⟨2, ![16384, 2048]⟩
abbrev S2048x2048 : Shape := ⟨2, ![2048, 2048]⟩
abbrev S1x2048 : Shape := ⟨2, ![1, 2048]⟩
abbrev S512x512 : Shape := ⟨2, ![512, 512]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S16x1024x2048, .f32⟩
  | .hbm, ⟨1, _⟩ => ⟨S4096x2048, .f32⟩
  | .hbm, ⟨2, _⟩ => ⟨S2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .hbm, ⟨10, _⟩ => ⟨S16x1024x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x1024x2048_S16384x2048 : S16x1024x2048.ShapeCasts S16384x2048
  slices_S4096x2048_S2048x2048_0_0 : S4096x2048.Slices ![0, 0] S2048x2048
  bitsLt_bf16_f32 : FTy.bits .bf16 < FTy.bits .f32
  slices_S4096x2048_S2048x2048_2048_0 : S4096x2048.Slices ![2048, 0] S2048x2048
  shapeCasts_S2048_S1x2048 : S2048.ShapeCasts S1x2048
  shapeCasts_S16384x2048_S16x1024x2048 : S16384x2048.ShapeCasts S16x1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x2048.size a
  hwx0_0 : ∀ i : grid0.Coords, EltTy.bits .f32 = 32 ∨ (Rect.block (s := S16384x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .bf16 = 32 ∨ (Rect.block (s := S2048x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_call0_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x1024x2048 : Shape := ⟨3, ![16, 1024, 2048]⟩
abbrev S4096x2048 : Shape := ⟨2, ![4096, 2048]⟩
abbrev S2048 : Shape := ⟨1, ![2048]⟩
abbrev S_ : Shape := ⟨0, ![]⟩
abbrev S16x1024x4096 : Shape := ⟨3, ![16, 1024, 4096]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x1024x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S16x1024x2048, .f32⟩
  | .hbm, ⟨5, _⟩ => ⟨S16x1024x2048, .f32⟩
  | .hbm, ⟨6, _⟩ => ⟨S16x1024x2048, .f32⟩
  | .hbm, ⟨7, _⟩ => ⟨S16x1024x2048, .f32⟩
  | .hbm, ⟨8, _⟩ => ⟨S_, .f32⟩
  | .hbm, ⟨9, _⟩ => ⟨S16x1024x2048, .f32⟩
  | .hbm, ⟨10, _⟩ => ⟨S16x1024x2048, .f32⟩
  | .hbm, ⟨11, _⟩ => ⟨S16x1024x2048, .f32⟩
  | .hbm, ⟨12, _⟩ => ⟨S16x1024x2048, .f32⟩
  | .hbm, ⟨13, _⟩ => ⟨S_, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S16x1024x2048, .f32⟩
  | .hbm, ⟨18, _⟩ => ⟨S16x1024x4096, .f32⟩
  | .hbm, ⟨19, _⟩ => ⟨S16x1024x2048, .f32⟩
  | .hbm, ⟨20, _⟩ => ⟨S1x1x2048, .f32⟩
  | .hbm, ⟨21, _⟩ => ⟨S16x1024x2048, .f32⟩
  | .hbm, ⟨22, _⟩ => ⟨S16x1024x2048, .f32⟩
  | .hbm, ⟨23, _⟩ => ⟨S16x1024x2048, .f32⟩
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S16x1024x2048 : S_.BroadcastsInDim S16x1024x2048 (![] : Fin 0 → Fin S16x1024x2048.rank)
  concatenates_S16x1024x2048_S16x1024x2048_S16x1024x4096_d2 : Shape.Concatenates [S16x1024x2048, S16x1024x2048] S16x1024x4096 2
  bcast_S2048_S1x1x2048_2 : S2048.BroadcastsInDim S1x1x2048 (![2] : Fin 1 → Fin S1x1x2048.rank)
  bcast_S1x1x2048_S16x1024x2048_0_1_2 : S1x1x2048.BroadcastsInDim S16x1024x2048 (![0, 1, 2] : Fin 3 → Fin S16x1024x2048.rank)
  dot_S16x1024x4096_S4096x2048_S16x1024x2048_2_0_01_1_n_n_wf : DotDims.WF S16x1024x4096 S4096x2048 S16x1024x2048 [2] [0] [0, 1] [1] [] []

variable [Facts₀]

def dot_S16x1024x4096_S4096x2048_S16x1024x2048_2_0_01_1_n_n : DotDims S16x1024x4096 S4096x2048 S16x1024x2048 where
  lhsContracting := [2]
  rhsContracting := [0]
  lhsNonContracting := [0, 1]
  rhsNonContracting := [1]
  lhsBatch := []
  rhsBatch := []
  wf := dot_S16x1024x4096_S4096x2048_S16x1024x2048_2_0_01_1_n_n_wf

class Facts : Prop extends Facts₀ where

variable [Facts]
-- ==== Proof.KPieces.lean ====
/-
  What each control case of the kernel body leaves behind, as pure terms of the blocks it read.

  The body keeps a 512 × 2048 accumulator between grid points.  At a point of tile 0 it clears the accumulator
  and adds the tile's two matrix products; at tiles 1 and 2 it adds them to what the point before left; at tile 3
  it does the same and then stores tanh(accumulator + bias row) into the output block.  Each statement below says
  that the contents found after the body are that arithmetic applied to the input blocks: the stores cover the
  whole buffer, so reading them back returns the last stored value.
-/
import proofs.«101470_j68006512165050_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.QuantumProj.Kernel

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- At a tile-0 point the accumulator is first cleared and then receives the tile's two products: it ends holding
    the update of the zero block. -/
theorem acc_first (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S512x2048 .bf16) (x2 : Vec F S512x2048 .bf16) (x3 : Vec F S1x2048 .f32) :
    sout0_A_0 c i arg2 harg2 arg3 harg3 arg4 harg4 arg5 harg5 arg6 harg6 arg7 harg7 hc0 hc1 x0 x1 x2 x3 = k0_pay2 x0 (k0_pay1 (F := F)) x1 x2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, View.ld_unit_zero (S := S512x512) hz,
    View.ld_unit_zero (S := S512x2048) hz]

/-- At a middle tile the accumulator receives the tile's two products on top of what the point before left. -/
theorem acc_middle (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S512x2048 .bf16) (x2 : Vec F S512x2048 .bf16) (x3 : Vec F S1x2048 .f32) (xs0 : Vec F S512x2048 .f32) :
    sout0_B_0 c i arg2 harg2 arg3 harg3 arg4 harg4 arg5 harg5 arg6 harg6 arg7 harg7 hc0 hc1 x0 x1 x2 x3 xs0 = k0_pay2 x0 xs0 x1 x2 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg7.read_unread,
    View.ld_unit_zero (S := S512x512) hz, View.ld_unit_zero (S := S512x2048) hz]

/-- At the last tile the accumulator is updated the same way, -/
theorem acc_last (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .bf16) (x2 : Vec F S512x2048 .bf16) (x3 : Vec F S1x2048 .f32) (xs0 : Vec F S512x2048 .f32) :
    sout0_C_0 c i arg2 harg2 arg3 harg3 arg4 harg4 arg5 harg5 arg6 harg6 arg7 harg7 hc0 hc1 x0 x1 x2 x3 xs0 = k0_pay2 x0 xs0 x1 x2 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg7.read_unread,
    View.ld_unit_zero (S := S512x512) hz, View.ld_unit_zero (S := S512x2048) hz]

/-- and the output block receives tanh of the updated accumulator plus the bias row. -/
theorem out_last (c : Dev nD) (i : grid0.Coords) (arg2 : Memref sig .tc .vmem S512x512 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S512x2048 .bf16) (x2 : Vec F S512x2048 .bf16) (x3 : Vec F S1x2048 .f32) (xs0 : Vec F S512x2048 .f32) :
    out0_C_4 c i arg2 harg2 arg3 harg3 arg4 harg4 arg5 harg5 arg6 harg6 arg7 harg7 hc0 hc1 x0 x1 x2 x3 xs0 = k0_pay3 (k0_pay2 x0 xs0 x1 x2) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.readCov_unit_zero (S := S512x2048) _ hz,
    View.ld_unit_zero (S := S512x512) hz, View.ld_unit_zero (S := S512x2048) hz, View.ld_unit_zero (S := S1x2048) hz]

end Cert.QuantumProj.Kernel

end
-- ==== Proof.KArrays.lean ====
/-
  The arrays the kernel's windows read, as the region finds them: each is a host operation of an argument —
  the input flattened to 16384 rows, the two halves of the weight (rows 0…2047 and 2048…4095, narrowed to bf16,
  which changes nothing over the extended reals), the bias as a one-row matrix.
-/
import proofs.«101470_j68006512165050_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.QuantumProj.Kernel

open Cert.KernelIdeal Cert.KernelIdeal.Gen

variable {F : FTy → Type} [FloatOps F]
variable (m : (ℓ : Loc nD τ sig) → Buf (Elt F) ℓ)

/-- The three arguments at launch, by their literal types. -/
abbrev argX (c : Dev nD) : Vec F S16x1024x2048 .f32 := m ((c : Thread nD τ).loc main_arg0)
abbrev argW (c : Dev nD) : Vec F S4096x2048 .f32 := m ((c : Thread nD τ).loc main_arg1)
abbrev argB (c : Dev nD) : Vec F S2048 .f32 := m ((c : Thread nD τ).loc main_arg2)

/-- The arrays the four input windows stage, by their literal types. -/
abbrev arrX (c : Dev nD) : Vec F S16384x2048 .f32 := V m c main_call0_v0
abbrev arrW1 (c : Dev nD) : Vec F S2048x2048 .bf16 := V m c main_call0_v2
abbrev arrW2 (c : Dev nD) : Vec F S2048x2048 .bf16 := V m c main_call0_v4
abbrev arrB (c : Dev nD) : Vec F S1x2048 .f32 := V m c main_call0_v5

/-- The rows window 0 reads are the input with batch and position merged. -/
theorem arrX_eq (c : Dev nD) : arrX m c = shapeCast S16384x2048 (argX m c) shapeCasts_S16x1024x2048_S16384x2048 := by
  show StableHlo.after hostOps0 (fun b => m (c, b)) (Proc.devRef .tc main_call0_v0) = _
  after_results
  rfl

/-- Window 1 reads the upper half of the weight, -/
theorem arrW1_eq (c : Dev nD) : arrW1 m c
    = truncf .bf16 (extractStridedSlice S2048x2048 ![0, 0] (argW m c) slices_S4096x2048_S2048x2048_0_0) bitsLt_bf16_f32 := by
  show StableHlo.after hostOps0 (fun b => m (c, b)) (Proc.devRef .tc main_call0_v2) = _
  after_results
  rfl

/-- window 2 the lower half, -/
theorem arrW2_eq (c : Dev nD) : arrW2 m c
    = truncf .bf16 (extractStridedSlice S2048x2048 ![2048, 0] (argW m c) slices_S4096x2048_S2048x2048_2048_0) bitsLt_bf16_f32 := by
  show StableHlo.after hostOps0 (fun b => m (c, b)) (Proc.devRef .tc main_call0_v4) = _
  after_results
  rfl

/-- and window 3 the bias as one row. -/
theorem arrB_eq (c : Dev nD) : arrB m c = shapeCast S1x2048 (argB m c) shapeCasts_S2048_S1x2048 := by
  show StableHlo.after hostOps0 (fun b => m (c, b)) (Proc.devRef .tc main_call0_v5) = _
  after_results
  rfl

end Cert.QuantumProj.Kernel

end
-- ==== Proof.Spec.lean ====
/-
  The specification, stated with no program in sight.

  One output entry of the layer is  tanh (⟨φ(row), column⟩ + bias)  where φ(row) is the row of enhanced values
  e(x) = tanh(2π x) + 0.1 · (sin(2π x) · cos(2π x · ½))  followed by their squares (4096 features), and the inner
  product runs over all 4096 features.  The kernel computes the same inner product in four tiles of 512 columns,
  each tile contributing its linear part (enhanced values against rows 512 n … of the weight) plus its quadratic
  part (squares against rows 2048 + 512 n …).  Over the extended reals addition is a commutative monoid, so a sum
  may be cut into consecutive blocks and two sums over one range may be added term by term; that is all the
  law below uses: no cancellation, no distributivity, hence no finiteness.
-/
import Idealize.ShloMosaic.PureOps.Ideal
import Idealize.ShloMosaic.PureOps.Ideal.Laws
import Idealize.ShloMosaic.Lib.ValueIdx

noncomputable section

namespace Cert.QuantumProj

open Idealize.ShloMosaic Idealize.ShloMosaic.ValueIdx

/-- The enhanced value of one input entry: tanh(2π x) + 0.1 · (sin(2π x) · cos(2π x · ½)), every constant the binary
    value both programs spell with the same word. -/
def enh (x : EReal) : EReal :=
  Ideal.tanh (x * Ideal.ofBits .f32 0x40C90FDB#32)
    + Ideal.ofBits .f32 0x3DCCCCCD#32
      * (Ideal.sin (x * Ideal.ofBits .f32 0x40C90FDB#32)
          * Ideal.cos (x * Ideal.ofBits .f32 0x40C90FDB#32 * Ideal.ofBits .f32 0x3F000000#32))

/-- A matrix read at natural-number coordinates (zero outside its extents: never consulted there). -/
def at2 {a b : ℕ} (X : (⟨2, ![a, b]⟩ : Shape).Idx → EReal) (r k : ℕ) : EReal :=
  if h : r < a ∧ k < b then X (ix2 ⟨r, h.1⟩ ⟨k, h.2⟩) else 0

theorem at2_ix2 {a b : ℕ} (X : (⟨2, ![a, b]⟩ : Shape).Idx → EReal) (p : Fin a) (q : Fin b) (r k : ℕ)
    (hr : r = p.val) (hk : k = q.val) : at2 X r k = X (ix2 p q) := by
  subst hr; subst hk
  unfold at2
  rw [dif_pos ⟨p.isLt, q.isLt⟩]

/-- A rank-3 array read at natural-number coordinates (zero outside its extents). -/
def at3 {a b d : ℕ} (X : (⟨3, ![a, b, d]⟩ : Shape).Idx → EReal) (r s k : ℕ) : EReal :=
  if h : r < a ∧ s < b ∧ k < d then X (ix3 ⟨r, h.1⟩ ⟨s, h.2.1⟩ ⟨k, h.2.2⟩) else 0

theorem at3_ix3 {a b d : ℕ} (X : (⟨3, ![a, b, d]⟩ : Shape).Idx → EReal) (p : Fin a) (q : Fin b) (u : Fin d) (r s k : ℕ)
    (hr : r = p.val) (hs : s = q.val) (hk : k = u.val) : at3 X r s k = X (ix3 p q u) := by
  subst hr; subst hs; subst hk
  unfold at3
  rw [dif_pos ⟨p.isLt, q.isLt, u.isLt⟩]

/-- Feature c of a row whose enhanced values are A: the value itself in the first 2048 places, its square after. -/
def feat (A : ℕ → EReal) (c : ℕ) : EReal := if c < 2048 then A c else A (c - 2048) * A (c - 2048)

/-- The inner product of a row's 4096 features with a weight column. -/
def rowdot (A B : ℕ → EReal) : EReal := ∑ c ∈ Finset.range 4096, feat A c * B c

/-- What tile n of 512 columns contributes: its linear part plus its quadratic part. -/
def tile (A B : ℕ → EReal) (n : ℕ) : EReal :=
  (∑ k ∈ Finset.range 512, A (512 * n + k) * B (512 * n + k))
    + (∑ k ∈ Finset.range 512, (A (512 * n + k) * A (512 * n + k)) * B (2048 + (512 * n + k)))

/-- A sum over B·N consecutive places is the sum over N blocks of B places. -/
theorem sum_range_blocks (h : ℕ → EReal) (B : ℕ) :
    ∀ N : ℕ, ∑ c ∈ Finset.range (B * N), h c = ∑ n ∈ Finset.range N, ∑ k ∈ Finset.range B, h (B * n + k)
  | 0 => by simp
  | N + 1 => by
    rw [Nat.mul_succ, Finset.sum_range_add, sum_range_blocks h B N, Finset.sum_range_succ]

/-- THE LAW: the inner product over all 4096 features is the sum of the four tiles. -/
theorem rowdot_eq_tiles (A B : ℕ → EReal) : rowdot A B = ∑ n ∈ Finset.range 4, tile A B n := by
  unfold rowdot tile
  rw [show (4096 : ℕ) = 2048 + 2048 from rfl, Finset.sum_range_add]
  have h1 : ∑ c ∈ Finset.range 2048, feat A c * B c = ∑ c ∈ Finset.range 2048, A c * B c :=
    Finset.sum_congr rfl fun c hc => by
      have : c < 2048 := Finset.mem_range.1 hc
      unfold feat; rw [if_pos this]
  have h2 : ∑ c ∈ Finset.range 2048, feat A (2048 + c) * B (2048 + c)
      = ∑ c ∈ Finset.range 2048, (A c * A c) * B (2048 + c) :=
    Finset.sum_congr rfl fun c _ => by
      unfold feat; rw [if_neg (by omega), Nat.add_sub_cancel_left]
  rw [h1, h2, show (2048 : ℕ) = 512 * 4 from rfl, sum_range_blocks (fun c => A c * B c) 512 4,
    sum_range_blocks (fun c => (A c * A c) * B (512 * 4 + c)) 512 4, ← Finset.sum_add_distrib]

/-- The layer's result at batch b, position s, unit u: tanh of the feature row's inner product with weight column u,
    plus the bias. -/
def G (x : (⟨3, ![16, 1024, 2048]⟩ : Shape).Idx → EReal) (W : (⟨2, ![4096, 2048]⟩ : Shape).Idx → EReal)
    (bias : (⟨1, ![2048]⟩ : Shape).Idx → EReal) : (⟨3, ![16, 1024, 2048]⟩ : Shape).Idx → EReal :=
  fun i => Ideal.tanh (rowdot (fun k => enh (at3 x (i 0).val (i 1).val k)) (fun c => at2 W c (i 2).val) + bias (ix1 (i 2)))

/-- The same result over the flattened rows: row r of the 16384 × 2048 matrix of inputs, the bias as a one-row matrix. -/
def G2 (X : (⟨2, ![16384, 2048]⟩ : Shape).Idx → EReal) (W : (⟨2, ![4096, 2048]⟩ : Shape).Idx → EReal)
    (bias : (⟨2, ![1, 2048]⟩ : Shape).Idx → EReal) : (⟨2, ![16384, 2048]⟩ : Shape).Idx → EReal :=
  fun j => Ideal.tanh (rowdot (fun k => enh (at2 X (j 0).val k)) (fun c => at2 W c (j 1).val) + bias (ix2 0 (j 1)))

end Cert.QuantumProj

end
-- ==== Proof.KBlocks.lean ====
/-
  Which entries of the arrays a grid point's blocks are.

  Grid point t = 4 i + n (row block i of 32, column tile n of 4).  Window 0's block at t is rows 512 i … and
  columns 512 n … of the flattened input; windows 1 and 2 read rows 512 n … of their half of the weight, all 2048
  columns; window 3 always reads the one bias row; the output window's block is rows 512 i … of the result.
  A block's coordinate is always (block index) × (block size) + (coordinate inside the block).
-/
import proofs.«101470_j68006512165050_1_alg».proof.Proof.KArrays
import proofs.«101470_j68006512165050_1_alg».proof.Proof.Spec

noncomputable section

open Idealize.ShloMosaic Idealize.ShloMosaic.TcCoe Idealize.SL.Sem Idealize.ShloMosaic.ValueIdx
open Idealize.ShloMosaic.Pipeline (Dat)

namespace Cert.QuantumProj.Kernel

open Cert.KernelIdeal Cert.KernelIdeal.Gen Cert.QuantumProj

/-- The block indices of the five windows at grid point t, decided once over the 128 points. -/
theorem index0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem index2 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

section AnyF
variable {F : FTy → Type} [FloatOps F]
variable (m : (ℓ : Loc nD τ sig) → Buf (Elt F) ℓ)

/-- The blocks at a point, by their literal types. -/
abbrev blkX (c : Dev nD) (t : Fin cfg0.N) : Vec F S512x512 .f32 := iblk m c 0 t
abbrev blkW1 (c : Dev nD) (t : Fin cfg0.N) : Vec F S512x2048 .bf16 := iblk m c 1 t
abbrev blkW2 (c : Dev nD) (t : Fin cfg0.N) : Vec F S512x2048 .bf16 := iblk m c 2 t
abbrev blkB (c : Dev nD) (t : Fin cfg0.N) : Vec F S1x2048 .f32 := iblk m c 3 t

/-- Entry (p, k) of the input block at t is entry (512 (t / 4) + p, 512 (t % 4) + k) of the flattened input. -/
theorem blkX_apply (c : Dev nD) (t : Fin cfg0.N) (p k : Fin 512) (r : Fin 16384) (f : Fin 2048)
    (hr : r.val = 512 * (t.val / 4) + p.val) (hf : f.val = 512 * (t.val % 4) + k.val) :
    blkX m c t (ix2 p k) = arrX m c (ix2 r f) := by
  unfold blkX iblk
  rw [View.read_apply]
  show V m c main_call0_v0 _ = V m c main_call0_v0 _
  congr 1
  funext a
  apply Fin.ext
  match a with
  | ⟨0, _⟩ => show win0_0.index t 0 * 512 + 1 * p.val = r.val; rw [(index0 t).1]; omega
  | ⟨1, _⟩ => show win0_0.index t 1 * 512 + 1 * k.val = f.val; rw [(index0 t).2]; omega

/-- Entry (k, q) of the first weight block at t is entry (512 (t % 4) + k, q) of the weight's upper half. -/
theorem blkW1_apply (c : Dev nD) (t : Fin cfg0.N) (k : Fin 512) (q : Fin 2048) (r : Fin 2048)
    (hr : r.val = 512 * (t.val % 4) + k.val) :
    blkW1 m c t (ix2 k q) = arrW1 m c (ix2 r q) := by
  unfold blkW1 iblk
  rw [View.read_apply]
  show V m c main_call0_v2 _ = V m c main_call0_v2 _
  congr 1
  funext a
  apply Fin.ext
  match a with
  | ⟨0, _⟩ => show win0_1.index t 0 * 512 + 1 * k.val = r.val; rw [(index1 t).1]; omega
  | ⟨1, _⟩ => show win0_1.index t 1 * 2048 + 1 * q.val = q.val; rw [(index1 t).2]; omega

/-- The same for the second weight block and the weight's lower half. -/
theorem blkW2_apply (c : Dev nD) (t : Fin cfg0.N) (k : Fin 512) (q : Fin 2048) (r : Fin 2048)
    (hr : r.val = 512 * (t.val % 4) + k.val) :
    blkW2 m c t (ix2 k q) = arrW2 m c (ix2 r q) := by
  unfold blkW2 iblk
  rw [View.read_apply]
  show V m c main_call0_v4 _ = V m c main_call0_v4 _
  congr 1
  funext a
  apply Fin.ext
  match a with
  | ⟨0, _⟩ => show win0_2.index t 0 * 512 + 1 * k.val = r.val; rw [(index2 t).1]; omega
  | ⟨1, _⟩ => show win0_2.index t 1 * 2048 + 1 * q.val = q.val; rw [(index2 t).2]; omega

/-- The bias block is the bias row at every point. -/
theorem blkB_apply (c : Dev nD) (t : Fin cfg0.N) (q : Fin 2048) :
    blkB m c t (ix2 0 q) = arrB m c (ix2 0 q) := by
  unfold blkB iblk
  rw [View.read_apply]
  show V m c main_call0_v5 _ = V m c main_call0_v5 _
  congr 1
  funext a
  apply Fin.ext
  match a with
  | ⟨0, _⟩ => show win0_3.index t 0 * 1 + 1 * 0 = 0; rw [(index3 t).1]
  | ⟨1, _⟩ => show win0_3.index t 1 * 2048 + 1 * q.val = q.val; rw [(index3 t).2]; omega

end AnyF

/-! ### The same over the extended reals, at natural-number coordinates -/

section AtIdeal
variable (m : (ℓ : Loc nD τ sig) → Buf (Elt Ideal) ℓ)

theorem tdiv_lt (t : Fin cfg0.N) : t.val / 4 < 32 := by
  have : t.val < 128 := lt_of_lt_of_eq t.isLt (show cfg0.N = 128 from N_0)
  omega

theorem at2_blkX (c : Dev nD) (t : Fin cfg0.N) (p k : ℕ) (hp : p < 512) (hk : k < 512) :
    at2 (blkX m c t) p k = at2 (arrX m c) (512 * (t.val / 4) + p) (512 * (t.val % 4) + k) := by
  have h32 := tdiv_lt t
  rw [at2_ix2 (blkX m c t) ⟨p, hp⟩ ⟨k, hk⟩ p k rfl rfl,
    at2_ix2 (arrX m c) ⟨512 * (t.val / 4) + p, by omega⟩ ⟨512 * (t.val % 4) + k, by omega⟩ _ _ rfl rfl]
  exact blkX_apply m c t ⟨p, hp⟩ ⟨k, hk⟩ _ _ rfl rfl

/-- The weight's upper half at (k, q) is the weight at (k, q); narrowing to bf16 is the identity here. -/
theorem at2_arrW1 (c : Dev nD) (k q : ℕ) (hk : k < 2048) (hq : q < 2048) :
    at2 (arrW1 m c) k q = at2 (argW m c) k q := by
  rw [at2_ix2 (arrW1 m c) ⟨k, hk⟩ ⟨q, hq⟩ k q rfl rfl, at2_ix2 (argW m c) ⟨k, by omega⟩ ⟨q, hq⟩ k q rfl rfl, arrW1_eq]
  show extractStridedSlice S2048x2048 ![0, 0] (argW m c) slices_S4096x2048_S2048x2048_0_0 _ = _
  exact extractStridedSlice_apply _ _ _ _ _ (fun a => match a with
    | ⟨0, _⟩ => by show k = 0 + k; omega
    | ⟨1, _⟩ => by show q = 0 + q; omega)

/-- The weight's lower half at (k, q) is the weight at (2048 + k, q). -/
theorem at2_arrW2 (c : Dev nD) (k q : ℕ) (hk : k < 2048) (hq : q < 2048) :
    at2 (arrW2 m c) k q = at2 (argW m c) (2048 + k) q := by
  rw [at2_ix2 (arrW2 m c) ⟨k, hk⟩ ⟨q, hq⟩ k q rfl rfl, at2_ix2 (argW m c) ⟨2048 + k, by omega⟩ ⟨q, hq⟩ _ q rfl rfl, arrW2_eq]
  show extractStridedSlice S2048x2048 ![2048, 0] (argW m c) slices_S4096x2048_S2048x2048_2048_0 _ = _
  exact extractStridedSlice_apply _ _ _ _ _ (fun a => match a with
    | ⟨0, _⟩ => by show 2048 + k = 2048 + k; rfl
    | ⟨1, _⟩ => by show q = 0 + q; omega)

theorem at2_blkW1 (c : Dev nD) (t : Fin cfg0.N) (k q : ℕ) (hk : k < 512) (hq : q < 2048) :
    at2 (blkW1 m c t) k q = at2 (argW m c) (512 * (t.val % 4) + k) q := by
  rw [← at2_arrW1 m c _ q (by omega) hq, at2_ix2 (blkW1 m c t) ⟨k, hk⟩ ⟨q, hq⟩ k q rfl rfl,
    at2_ix2 (arrW1 m c) ⟨512 * (t.val % 4) + k, by omega⟩ ⟨q, hq⟩ _ q rfl rfl]
  exact blkW1_apply m c t ⟨k, hk⟩ ⟨q, hq⟩ _ rfl

theorem at2_blkW2 (c : Dev nD) (t : Fin cfg0.N) (k q : ℕ) (hk : k < 512) (hq : q < 2048) :
    at2 (blkW2 m c t) k q = at2 (argW m c) (2048 + (512 * (t.val % 4) + k)) q := by
  rw [← at2_arrW2 m c _ q (by omega) hq, at2_ix2 (blkW2 m c t) ⟨k, hk⟩ ⟨q, hq⟩ k q rfl rfl,
    at2_ix2 (arrW2 m c) ⟨512 * (t.val % 4) + k, by omega⟩ ⟨q, hq⟩ _ q rfl rfl]
  exact blkW2_apply m c t ⟨k, hk⟩ ⟨q, hq⟩ _ rfl

end AtIdeal

end Cert.QuantumProj.Kernel

end
-- ==== Proof.Payload.lean ====
/-
  The kernel body's three pure values read at one entry, over the extended reals.

  The zero block is 0 everywhere.  One accumulation step adds to the accumulator's entry (p, q) the linear part
  ∑ₖ e(x p k) · w₁ k q  and the quadratic part  ∑ₖ e(x p k)² · w₂ k q,  k over the 512 columns of the input tile,
  e the enhanced value; the roundings to the narrow format are the identity on extended reals, and the products
  accumulate into a zero block.  The last step is tanh of the accumulator's entry plus the bias of its column,
  the one-row bias read down every row.
-/
import proofs.«101470_j68006512165050_1_alg».proof.Proof.Gen.KernelIdeal.Skeleton
import proofs.«101470_j68006512165050_1_alg».proof.Proof.Spec
import Idealize.ShloMosaic.Lib.ValueIdx
import Idealize.ShloMosaic.Lib.Pipeline.Value
import Idealize.ShloMosaic.PureOps.Ideal.Laws
import Mathlib.Data.Fintype.BigOperators

noncomputable section

namespace Cert.QuantumProj.Pay

open Cert.KernelIdeal Cert.KernelIdeal.Gen Cert.QuantumProj Idealize.ShloMosaic Idealize.ShloMosaic.ValueIdx

/-- The zero block reads 0 at every entry. -/
theorem pay1_apply (j : S512x2048.Idx) : k0_pay1 (F := Ideal) j = 0 := by
  unfold k0_pay1
  rw [shapeCast_self]
  exact Ideal.ofBits_zero_f32

/-! ## The product of a 512 × 512 block with a 512 × 2048 block, read at an entry

The dimension numbers contract the left operand's axis 1 with the right operand's axis 0; the left operand's axis 0 and
the right operand's axis 1 are the result's two axes.  So at the result's entry (p, q) and contraction position k the
operands are read at (p, k) and (k, q). -/

/-- The left operand's row is the result's row. -/
theorem lhs_D_0 (i : S512x2048.Idx) (c : dot_S512x512_S512x2048_S512x2048_1_0_0_1_n_n.contr.Idx) :
    (dot_S512x512_S512x2048_S512x2048_1_0_0_1_n_n.lhsIdx i c 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
/-- The left operand's column is the contraction position. -/
theorem lhs_D_1 (i : S512x2048.Idx) (c : dot_S512x512_S512x2048_S512x2048_1_0_0_1_n_n.contr.Idx) :
    (dot_S512x512_S512x2048_S512x2048_1_0_0_1_n_n.lhsIdx i c 1).val = (c ⟨0, by decide⟩).val :=
  dot_S512x512_S512x2048_S512x2048_1_0_0_1_n_n.lhsIdx_val_of_single rfl i c
/-- The right operand's row is the contraction position. -/
theorem rhs_D_0 (i : S512x2048.Idx) (c : dot_S512x512_S512x2048_S512x2048_1_0_0_1_n_n.contr.Idx) :
    (dot_S512x512_S512x2048_S512x2048_1_0_0_1_n_n.rhsIdx i c 0).val = (c ⟨0, by decide⟩).val :=
  dot_S512x512_S512x2048_S512x2048_1_0_0_1_n_n.rhsIdx_val_of_single rfl i c
/-- The right operand's column is the result's column. -/
theorem rhs_D_1 (i : S512x2048.Idx) (c : dot_S512x512_S512x2048_S512x2048_1_0_0_1_n_n.contr.Idx) :
    (dot_S512x512_S512x2048_S512x2048_1_0_0_1_n_n.rhsIdx i c 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product into a zero block at entry (p, q): the sum over k of left (p, k) times right (k, q). -/
theorem matmul_zero_read {φ₁ φ₂ : FTy} (l : FVec Ideal S512x512 φ₁) (r : FVec Ideal S512x2048 φ₂) (p : Fin 512) (q : Fin 2048) :
    matmul (F := Ideal) dot_S512x512_S512x2048_S512x2048_1_0_0_1_n_n none l r (constant (F := Ideal) S512x2048 .f32 0x00000000#32) (ix2 p q)
      = ∑ k : Fin 512, l (ix2 p k) * r (ix2 k q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun a => Fin.ext (by
    match a with
    | ⟨0, _⟩ => exact lhs_D_0 _ _
    | ⟨1, _⟩ => exact (lhs_D_1 _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun a => Fin.ext (by
    match a with
    | ⟨0, _⟩ => exact (rhs_D_0 _ _).trans hk
    | ⟨1, _⟩ => exact rhs_D_1 _ _)
  rw [el, er]

/-- One accumulation step at entry (p, q): the accumulator's entry plus the tile's linear and quadratic parts. -/
theorem pay2_apply (x0 : Vec Ideal S512x512 .f32) (acc : Vec Ideal S512x2048 .f32) (w1 w2 : Vec Ideal S512x2048 .bf16)
    (p : Fin 512) (q : Fin 2048) :
    k0_pay2 (F := Ideal) x0 acc w1 w2 (ix2 p q)
      = acc (ix2 p q) + ((∑ k ∈ Finset.range 512, enh (at2 x0 p.val k) * at2 w1 k q.val)
                         + (∑ k ∈ Finset.range 512, (enh (at2 x0 p.val k) * enh (at2 x0 p.val k)) * at2 w2 k q.val)) := by
  unfold k0_pay2
  simp only [shapeCast_self]
  rw [← Fin.sum_univ_eq_sum_range (fun k => enh (at2 x0 p.val k) * at2 w1 k q.val) 512,
    ← Fin.sum_univ_eq_sum_range (fun k => (enh (at2 x0 p.val k) * enh (at2 x0 p.val k)) * at2 w2 k q.val) 512]
  refine congrArg (acc (ix2 p q) + ·) ?_
  refine congr (congrArg HAdd.hAdd ?_) ?_
  · refine (matmul_zero_read (φ₁ := .bf16) (φ₂ := .bf16) _ _ p q).trans (Finset.sum_congr rfl fun k _ => ?_)
    rw [at2_ix2 x0 p k p.val k.val rfl rfl, at2_ix2 w1 k q k.val q.val rfl rfl]
    rfl
  · refine (matmul_zero_read (φ₁ := .bf16) (φ₂ := .bf16) _ _ p q).trans (Finset.sum_congr rfl fun k _ => ?_)
    rw [at2_ix2 x0 p k p.val k.val rfl rfl, at2_ix2 w2 k q k.val q.val rfl rfl]
    rfl

/-- The last step: tanh of the accumulator's entry plus the bias of its column. -/
theorem pay3_apply (a : Vec Ideal S512x2048 .f32) (b : Vec Ideal S1x2048 .f32) (p : Fin 512) (q : Fin 2048) :
    k0_pay3 (F := Ideal) a b (ix2 p q) = Ideal.tanh (a (ix2 p q) + b (ix2 0 q)) := by
  unfold k0_pay3
  rw [shapeCast_self]
  show Ideal.tanh (a (ix2 p q) + broadcastTo S512x2048 b broadcasts_S1x2048_S512x2048 (ix2 p q)) = _
  rw [broadcastTo_apply b broadcasts_S1x2048_S512x2048 (ix2 p q) (ix2 0 q) (fun a => by
    match a with
    | ⟨0, _⟩ => rfl
    | ⟨1, _⟩ => rfl)]

end Cert.QuantumProj.Pay

end
-- ==== Proof.KInduct.lean ====
/-
  The accumulator after every grid point, and the output block at the last tile.

  Grid point t = 4 i + n handles row block i and column tile n.  By induction on t the accumulator after point t
  holds, at (p, q), the sum of tiles 0 … n of the inner product of flattened row 512 i + p with weight column q:
  a tile-0 point starts from zero, every other point adds its tile to what the point before left (the same row
  block, since 4 i + n - 1 is in the same group of four).  After tile 3 the four tiles are the whole inner
  product (the law of the specification), and the output block receives tanh of it plus the bias.
-/
import proofs.«101470_j68006512165050_1_alg».proof.Proof.KPieces
import proofs.«101470_j68006512165050_1_alg».proof.Proof.KBlocks
import proofs.«101470_j68006512165050_1_alg».proof.Proof.Payload

noncomputable section

open Idealize.ShloMosaic Idealize.ShloMosaic.TcCoe Idealize.SL.Sem Idealize.ShloMosaic.ValueIdx
open Idealize.ShloMosaic.Pipeline (Dat)

namespace Cert.QuantumProj.Kernel

open Cert.KernelIdeal Cert.KernelIdeal.Gen Cert.QuantumProj Cert.QuantumProj.Pay

variable (m : (ℓ : Loc nD τ sig) → Buf (Elt Ideal) ℓ)

/-- The enhanced values along flattened row r, and weight column q, at natural-number places. -/
def rowA (c : Dev nD) (r : ℕ) : ℕ → EReal := fun k => enh (at2 (arrX m c) r k)
def colB (c : Dev nD) (q : ℕ) : ℕ → EReal := fun k => at2 (argW m c) k q

/-- One point's update of the accumulator: whatever it held, plus this point's tile of the row's inner product. -/
theorem update_apply (c : Dev nD) (t : Fin cfg0.N) (acc : Vec Ideal S512x2048 .f32) (p : Fin 512) (q : Fin 2048) :
    k0_pay2 (F := Ideal) (blkX m c t) acc (blkW1 m c t) (blkW2 m c t) (ix2 p q)
      = acc (ix2 p q) + tile (rowA m c (512 * (t.val / 4) + p.val)) (colB m c q.val) (t.val % 4) := by
  refine (pay2_apply (blkX m c t) acc (blkW1 m c t) (blkW2 m c t) p q).trans ?_
  unfold tile rowA colB
  congr 2
  · refine Finset.sum_congr rfl fun k hk => ?_
    have hk' : k < 512 := Finset.mem_range.1 hk
    rw [at2_blkX m c t p.val k p.isLt hk', at2_blkW1 m c t k q.val hk' q.isLt]
  · refine Finset.sum_congr rfl fun k hk => ?_
    have hk' : k < 512 := Finset.mem_range.1 hk
    rw [at2_blkX m c t p.val k p.isLt hk', at2_blkW2 m c t k q.val hk' q.isLt]

/-- THE INVARIANT: after point n the accumulator holds tiles 0 … n % 4 of row block n / 4. -/
theorem acc_eq (c : Dev nD) : ∀ (n : ℕ) (h : n < cfg0.N) (p : Fin 512) (q : Fin 2048),
    ((outsAt0 m c n h).2 : Vec Ideal S512x2048 .f32) (ix2 p q)
      = ∑ j ∈ Finset.range (n % 4 + 1), tile (rowA m c (512 * (n / 4) + p.val)) (colB m c q.val) j
  | 0, h, p, q => by
    rw [outsAt0_A m c ⟨0, h⟩ rfl (by show ¬(0 : ℕ) % 4 = 3; decide)]
    dsimp only
    refine (congrFun (acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _)
      ((hcond0_0 ⟨0, h⟩).mpr rfl) (fun h' => (by decide : ¬(0 : ℕ) % 4 = 3) ((hcond0_1 ⟨0, h⟩).mp h'))
      (iblk m c 0 ⟨0, h⟩) (iblk m c 1 ⟨0, h⟩) (iblk m c 2 ⟨0, h⟩) (iblk m c 3 ⟨0, h⟩)) (ix2 p q)).trans ?_
    refine (update_apply m c ⟨0, h⟩ (k0_pay1 (F := Ideal)) p q).trans ?_
    rw [pay1_apply, zero_add]
    show tile _ _ 0 = ∑ j ∈ Finset.range 1, _
    rw [Finset.sum_range_one]
  | n + 1, h, p, q => by
    have hN : n + 1 < 128 := lt_of_lt_of_eq h (show cfg0.N = 128 from N_0)
    by_cases h0 : (n + 1) % 4 = 0
    · have h1 : ¬(n + 1) % 4 = 3 := by omega
      rw [outsAt0_A m c ⟨n + 1, h⟩ h0 h1]
      dsimp only
      refine (congrFun (acc_first (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
        ((hcond0_0 ⟨n + 1, h⟩).mpr h0) (fun h' => h1 ((hcond0_1 ⟨n + 1, h⟩).mp h'))
        (iblk m c 0 ⟨n + 1, h⟩) (iblk m c 1 ⟨n + 1, h⟩) (iblk m c 2 ⟨n + 1, h⟩) (iblk m c 3 ⟨n + 1, h⟩)) (ix2 p q)).trans ?_
      refine (update_apply m c ⟨n + 1, h⟩ (k0_pay1 (F := Ideal)) p q).trans ?_
      rw [pay1_apply, zero_add]
      show tile _ _ ((n + 1) % 4) = _
      rw [h0, Finset.sum_range_one]
    · have ih := acc_eq c n (Nat.lt_of_succ_lt h) p q
      have e1 : (n + 1) / 4 = n / 4 := by omega
      have e2 : (n + 1) % 4 = n % 4 + 1 := by omega
      by_cases h1 : (n + 1) % 4 = 3
      · rw [outsAt0_C m c ⟨n + 1, h⟩ h0 h1]
        dsimp only
        refine (congrFun (acc_last (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun h' => h0 ((hcond0_0 ⟨n + 1, h⟩).mp h')) ((hcond0_1 ⟨n + 1, h⟩).mpr h1)
          (iblk m c 0 ⟨n + 1, h⟩) (iblk m c 1 ⟨n + 1, h⟩) (iblk m c 2 ⟨n + 1, h⟩) (iblk m c 3 ⟨n + 1, h⟩)
          (outsAt0 m c n (Nat.lt_of_succ_lt h)).2) (ix2 p q)).trans ?_
        refine (update_apply m c ⟨n + 1, h⟩ (outsAt0 m c n (Nat.lt_of_succ_lt h)).2 p q).trans ?_
        show (outsAt0 m c n _).2 (ix2 p q) + tile _ _ ((n + 1) % 4) = _
        rw [ih, e1, e2]
        exact (Finset.sum_range_succ _ _).symm
      · rw [outsAt0_B m c ⟨n + 1, h⟩ h0 h1]
        dsimp only
        refine (congrFun (acc_middle (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun h' => h0 ((hcond0_0 ⟨n + 1, h⟩).mp h')) (fun h' => h1 ((hcond0_1 ⟨n + 1, h⟩).mp h'))
          (iblk m c 0 ⟨n + 1, h⟩) (iblk m c 1 ⟨n + 1, h⟩) (iblk m c 2 ⟨n + 1, h⟩) (iblk m c 3 ⟨n + 1, h⟩)
          (outsAt0 m c n (Nat.lt_of_succ_lt h)).2) (ix2 p q)).trans ?_
        refine (update_apply m c ⟨n + 1, h⟩ (outsAt0 m c n (Nat.lt_of_succ_lt h)).2 p q).trans ?_
        show (outsAt0 m c n _).2 (ix2 p q) + tile _ _ ((n + 1) % 4) = _
        rw [ih, e1, e2]
        exact (Finset.sum_range_succ _ _).symm

/-- THE OUTPUT BLOCK at a last-tile point: tanh of the row's whole inner product plus the bias — the specification's
    flattened result at row 512 (t / 4) + p. -/
theorem out_eq (c : Dev nD) (t : Fin cfg0.N) (h3 : t.val % 4 = 3) (p : Fin 512) (q : Fin 2048) :
    ((outsAt0 m c t.val t.isLt).1 : Vec Ideal S512x2048 .f32) (ix2 p q)
      = Ideal.tanh (rowdot (rowA m c (512 * (t.val / 4) + p.val)) (colB m c q.val) + arrB m c (ix2 0 q)) := by
  have h0 : ¬t.val % 4 = 0 := by omega
  have hN : t.val < 128 := lt_of_lt_of_eq t.isLt (show cfg0.N = 128 from N_0)
  have hpos : 0 < t.val := by omega
  rw [outsAt0_C m c t h0 h3]
  dsimp only
  refine (congrFun (out_last (F := Ideal) c (grid0.coords t) (ms0_0 t) (hs0_0 t) (ms0_1 t) (hs0_1 t)
    (ms0_2 t) (hs0_2 t) (ms0_3 t) (hs0_3 t) (ms0_4 t) (hs0_4 t) scM0_0 (Memref.isWhole_whole _)
    (fun h' => h0 ((hcond0_0 t).mp h')) ((hcond0_1 t).mpr h3)
    (iblk m c 0 t) (iblk m c 1 t) (iblk m c 2 t) (iblk m c 3 t)
    (outsAt0 m c (t.val - 1) (Nat.lt_of_le_of_lt (Nat.sub_le _ _) t.isLt)).2) (ix2 p q)).trans ?_
  refine (pay3_apply _ (blkB m c t) p q).trans ?_
  rw [blkB_apply m c t q]
  refine congrArg (fun z => Ideal.tanh (z + arrB m c (ix2 0 q))) ?_
  refine (update_apply m c t _ p q).trans ?_
  have ih := acc_eq m c (t.val - 1) (Nat.lt_of_le_of_lt (Nat.sub_le _ _) t.isLt) p q
  have e1 : (t.val - 1) / 4 = t.val / 4 := by omega
  have e2 : (t.val - 1) % 4 + 1 = 3 := by omega
  rw [ih, e1, e2, h3, ← Finset.sum_range_succ, rowdot_eq_tiles]

end Cert.QuantumProj.Kernel

end
-- ==== Proof.RefValue.lean ====
/-
  The reference's result, element by element, is the specification's closed form.

  The reference builds the enhanced values e(x) = tanh(2π x) + 0.1 · (sin(2π x) · cos(2π x · ½)), joins them with
  their squares along the last axis (4096 features per row), contracts the features against the weight's rows, adds
  the bias and applies tanh.  Read at an index (b, s, u) this is tanh(Σ_c feature_c(b, s) · W[c, u] + bias[u]):
  a feature below 2048 lies in the first joined piece, one from 2048 on in the second, 2048 less.

  The second statement is index bookkeeping only: the same closed form over the rows flattened to a 16384 × 2048
  matrix (row 1024 · b + s), the bias as a one-row matrix, viewed back as a rank-3 array.
-/
import proofs.«101470_j68006512165050_1_alg».proof.Proof.Gen.ReferenceIdeal.Read
import proofs.«101470_j68006512165050_1_alg».proof.Proof.Spec
import Idealize.ShloMosaic.Lib.Pipeline.Value
import Idealize.ShloMosaic.Lib.ValueIdx
import Idealize.ShloMosaic.PureOps.Ideal.Laws

noncomputable section

namespace Cert.QuantumProj.Ref

open Idealize.ShloMosaic Idealize.ShloMosaic.ValueIdx Cert.ReferenceIdeal Cert.ReferenceIdeal.Read Cert.QuantumProj

/-- The enhanced values at an index: the function `enh` of the input there. -/
theorem v10_apply (x : (⟨S16x1024x2048, .f32⟩ : BufTy).Contents (Elt Ideal)) (i : S16x1024x2048.Idx) :
    val_main_v10 (F := Ideal) x i = enh (x i) := by
  rw [val_main_v10_apply, val_main_v2_apply, val_main_v9_apply, val_main_v8_apply, val_main_cst_1_apply,
    val_main_v7_apply, val_main_v3_apply, val_main_v6_apply, val_main_v5_apply, val_main_v4_apply,
    val_main_cst_0_apply, val_main_v1_apply, val_main_v0_apply, val_main_cst_apply]
  rfl

/-- The squares at an index. -/
theorem v11_apply (x : (⟨S16x1024x2048, .f32⟩ : BufTy).Contents (Elt Ideal)) (i : S16x1024x2048.Idx) :
    val_main_v11 (F := Ideal) x i = enh (x i) * enh (x i) := by
  rw [val_main_v11_apply, v10_apply]
  rfl

/-- A feature below 2048 of the joined array is the enhanced value at that place. -/
theorem v12_apply_lt (x : (⟨S16x1024x2048, .f32⟩ : BufTy).Contents (Elt Ideal)) (i : S16x1024x2048.Idx) (k : Fin 4096)
    (hk : k.val < 2048) :
    val_main_v12 (F := Ideal) x (lidx_main_v13 i k) = enh (x (ix3 (i 0) (i 1) ⟨k.val, hk⟩)) := by
  unfold val_main_v12
  exact (concatenate_pair_apply_left (t := S16x1024x4096) (s₁ := S16x1024x2048) (s₂ := S16x1024x2048) 2
    (val_main_v10 (F := Ideal) x) (val_main_v11 (F := Ideal) x) _ (lidx_main_v13 i k) rfl
    (ix3 (i 0) (i 1) ⟨k.val, hk⟩) (fun b => by
      match b with
      | ⟨0, _⟩ => rfl
      | ⟨1, _⟩ => rfl
      | ⟨2, _⟩ => rfl)).trans (v10_apply x _)

/-- A feature from 2048 on of the joined array is the square of the enhanced value 2048 places before. -/
theorem v12_apply_ge (x : (⟨S16x1024x2048, .f32⟩ : BufTy).Contents (Elt Ideal)) (i : S16x1024x2048.Idx) (k : Fin 4096)
    (hk : ¬ k.val < 2048) :
    val_main_v12 (F := Ideal) x (lidx_main_v13 i k)
      = enh (x (ix3 (i 0) (i 1) ⟨k.val - 2048, by have := k.isLt; omega⟩))
        * enh (x (ix3 (i 0) (i 1) ⟨k.val - 2048, by have := k.isLt; omega⟩)) := by
  unfold val_main_v12
  exact (concatenate_pair_apply_right (t := S16x1024x4096) (s₁ := S16x1024x2048) (s₂ := S16x1024x2048) 2
    (val_main_v10 (F := Ideal) x) (val_main_v11 (F := Ideal) x) _ (lidx_main_v13 i k) rfl rfl
    (ix3 (i 0) (i 1) ⟨k.val - 2048, by have := k.isLt; omega⟩)
    (fun b hb => by
      match b with
      | ⟨0, _⟩ => rfl
      | ⟨1, _⟩ => rfl
      | ⟨2, _⟩ => exact absurd rfl hb)
    (by show k.val - 2048 + 2048 = k.val; omega)).trans (v11_apply x _)

/-- The bias broadcast over the batch and the positions, at an index: the bias at the unit. -/
theorem v15_apply (b : (⟨S2048, .f32⟩ : BufTy).Contents (Elt Ideal)) (i : S16x1024x2048.Idx) :
    val_main_v15 (F := Ideal) b i = b (ix1 (i 2)) := by
  rw [val_main_v15_apply, val_main_v14_apply]
  refine congrArg b (funext fun a => ?_)
  match a with
  | ⟨0, _⟩ => rfl

/-- The weight's entry the contraction meets at feature k. -/
theorem ridx_eq (i : S16x1024x2048.Idx) (k : Fin 4096) : ridx_main_v13 i k = ix2 k (i 2) := by
  funext a
  match a with
  | ⟨0, _⟩ => rfl
  | ⟨1, _⟩ => rfl

/-- One term of the contraction is the specification's term: the feature times the weight's entry. -/
theorem term_eq (x : (⟨S16x1024x2048, .f32⟩ : BufTy).Contents (Elt Ideal))
    (W : (⟨S4096x2048, .f32⟩ : BufTy).Contents (Elt Ideal)) (i : S16x1024x2048.Idx) (k : Fin 4096) :
    val_main_v12 (F := Ideal) x (lidx_main_v13 i k) * W (ridx_main_v13 i k)
      = feat (fun c => enh (at3 x (i 0).val (i 1).val c)) k.val * at2 W k.val (i 2).val := by
  rw [ridx_eq, at2_ix2 W k (i 2) k.val (i 2).val rfl rfl]
  congr 1
  unfold feat
  by_cases hk : k.val < 2048
  · rw [if_pos hk, v12_apply_lt x i k hk]
    exact congrArg enh (at3_ix3 x (i 0) (i 1) ⟨k.val, hk⟩ (i 0).val (i 1).val k.val rfl rfl rfl).symm
  · have e := at3_ix3 x (i 0) (i 1) ⟨k.val - 2048, by have := k.isLt; omega⟩ (i 0).val (i 1).val (k.val - 2048)
      rfl rfl rfl
    rw [if_neg hk, v12_apply_ge x i k hk]
    show _ = enh (at3 x (i 0).val (i 1).val (k.val - 2048)) * enh (at3 x (i 0).val (i 1).val (k.val - 2048))
    rw [e]

/-- The reference's result is the closed form G. -/
theorem ref_eq (x : (⟨Cert.ReferenceIdeal.S16x1024x2048, .f32⟩ : BufTy).Contents (Elt Ideal))
    (W : (⟨Cert.ReferenceIdeal.S4096x2048, .f32⟩ : BufTy).Contents (Elt Ideal))
    (b : (⟨Cert.ReferenceIdeal.S2048, .f32⟩ : BufTy).Contents (Elt Ideal)) :
    Cert.ReferenceIdeal.Read.val_main_v17 (F := Ideal) x W b = Cert.QuantumProj.G x W b := by
  funext i
  rw [val_main_v17_apply, val_main_v16_apply, val_main_v13_apply, v15_apply]
  unfold G rowdot
  rw [Finset.sum_congr rfl (fun k _ => term_eq x W i k),
    Fin.sum_univ_eq_sum_range (fun c => feat (fun c => enh (at3 x (i 0).val (i 1).val c)) c * at2 W c (i 2).val) 4096]
  rfl

/-- The closed form over the flattened rows, viewed back as a rank-3 array, is the closed form: row 1024 · b + s of
    the flattened input is row (b, s) of the input, and the one-row bias at column u is the bias at u. -/
theorem G2_reshape (x : (⟨3, ![16, 1024, 2048]⟩ : Shape).Idx → EReal) (W : (⟨2, ![4096, 2048]⟩ : Shape).Idx → EReal)
    (b : (⟨1, ![2048]⟩ : Shape).Idx → EReal)
    (h1 : (⟨3, ![16, 1024, 2048]⟩ : Shape).ShapeCasts ⟨2, ![16384, 2048]⟩)
    (h2 : (⟨1, ![2048]⟩ : Shape).ShapeCasts ⟨2, ![1, 2048]⟩)
    (h3 : (⟨2, ![16384, 2048]⟩ : Shape).ShapeCasts ⟨3, ![16, 1024, 2048]⟩) :
    shapeCast ⟨3, ![16, 1024, 2048]⟩
        (Cert.QuantumProj.G2 (shapeCast ⟨2, ![16384, 2048]⟩ x h1) W (shapeCast ⟨2, ![1, 2048]⟩ b h2)) h3
      = Cert.QuantumProj.G x W b := by
  funext i
  have hi0 : (i 0).val < 16 := (i 0).isLt
  have hi1 : (i 1).val < 1024 := (i 1).isLt
  have hr : 1024 * (i 0).val + (i 1).val < 16384 := by omega
  rw [shapeCast_apply _ h3 i (ix2 ⟨1024 * (i 0).val + (i 1).val, hr⟩ (i 2)) (by
    rw [Shape.rowMajor_val_two, Shape.rowMajor_val_three]
    show (1024 * (i 0).val + (i 1).val) * 2048 + (i 2).val = ((i 0).val * 1024 + (i 1).val) * 2048 + (i 2).val
    omega)]
  have eA : (fun k => enh (at2 (shapeCast ⟨2, ![16384, 2048]⟩ x h1) (1024 * (i 0).val + (i 1).val) k))
      = (fun k => enh (at3 x (i 0).val (i 1).val k)) := by
    funext k
    refine congrArg enh ?_
    by_cases hk : k < 2048
    · rw [at2_ix2 (shapeCast ⟨2, ![16384, 2048]⟩ x h1) ⟨1024 * (i 0).val + (i 1).val, hr⟩ ⟨k, hk⟩ _ _ rfl rfl,
        at3_ix3 x (i 0) (i 1) ⟨k, hk⟩ _ _ _ rfl rfl rfl]
      exact shapeCast_apply x h1 _ _ (by
        rw [Shape.rowMajor_val_two, Shape.rowMajor_val_three]
        show ((i 0).val * 1024 + (i 1).val) * 2048 + k = (1024 * (i 0).val + (i 1).val) * 2048 + k
        omega)
    · unfold at2 at3
      rw [dif_neg (fun h => hk h.2), dif_neg (fun h => hk h.2.2)]
  have eb : shapeCast ⟨2, ![1, 2048]⟩ b h2 (ix2 0 (i 2)) = b (ix1 (i 2)) :=
    shapeCast_apply b h2 _ _ (by
      rw [Shape.rowMajor_val_two, Shape.rowMajor_val_one]
      show (i 2).val = 0 * 2048 + (i 2).val
      omega)
  unfold G2 G
  show Ideal.tanh (rowdot (fun k => enh (at2 (shapeCast ⟨2, ![16384, 2048]⟩ x h1) (1024 * (i 0).val + (i 1).val) k))
      (fun c => at2 W c (i 2).val) + shapeCast ⟨2, ![1, 2048]⟩ b h2 (ix2 0 (i 2))) = _
  rw [eA, eb]

end Cert.QuantumProj.Ref

end
-- ==== Proof.KFinal.lean ====
/-
  From the output blocks to the result array, and through the final reshape.

  The output window writes back at the last-tile points only; the block written at point 4 i + 3 is rows
  512 i … 512 i + 511 of the flattened result, and these 32 blocks tile its 16384 rows.  So after the run the
  flattened result is the specification's G2 of the region's arrays, and the host's closing reshape to
  16 × 1024 × 2048 makes it the specification's G of the three arguments.
-/
import proofs.«101470_j68006512165050_1_alg».proof.Proof.KInduct
import proofs.«101470_j68006512165050_1_alg».proof.Proof.RefValue

noncomputable section

open Idealize.ShloMosaic Idealize.ShloMosaic.TcCoe Idealize.SL.Sem Idealize.ShloMosaic.ValueIdx
open Idealize.ShloMosaic.Pipeline (Dat)

namespace Cert.QuantumProj.Kernel

open Cert.KernelIdeal Cert.KernelIdeal.Gen Cert.QuantumProj

variable (m : (ℓ : Loc nD τ sig) → Buf (Elt Ideal) ℓ) (ρ : Dev nD → PrngReg)

/-- The flattened result: the specification over the region's arrays. -/
abbrev res2 (c : Dev nD) : Vec Ideal S16384x2048 .f32 := G2 (arrX m c) (argW m c) (arrB m c)

/-- What a last-tile point writes back is its block of the flattened result. -/
theorem flushed_eq (c : Dev nD) (t : Fin cfg0.N) (hf : (cfg0.win 4).flush t = true) :
    (dats m 0 c).flushed 4 t = ((cfg0.win 4).blk t).view.read (Elt Ideal) (res2 m c) := by
  have h3 : t.val % 4 = 3 := (flush0_4 t).mp hf
  show (cfg0.win 4).cut (grid0.coords t) ((dats m 0 c).after 4 t) = _
  rw [after0_4]
  funext y
  obtain ⟨p, q, rfl⟩ : ∃ (p : Fin 512) (q : Fin 2048), y = ix2 p q := ⟨y 0, y 1, eq_ix2 y⟩
  show ((outsAt0 m c t.val t.isLt).1 : Vec Ideal S512x2048 .f32) (ix2 p q) = res2 m c (((cfg0.win 4).blk t).view.emb (ix2 p q))
  have hj0 : ((((cfg0.win 4).blk t).view.emb (ix2 p q) : S16384x2048.Idx) 0).val = 512 * (t.val / 4) + p.val := by
    show win0_4.index t 0 * 512 + 1 * p.val = _
    rw [(index4 t).1]; omega
  have hj1 : (((cfg0.win 4).blk t).view.emb (ix2 p q) : S16384x2048.Idx) 1 = q := Fin.ext (by
    show win0_4.index t 1 * 2048 + 1 * q.val = q.val
    rw [(index4 t).2]; omega)
  rw [out_eq m c t h3 p q]
  generalize (((cfg0.win 4).blk t).view.emb (ix2 p q) : S16384x2048.Idx) = j at hj0 hj1
  show _ = Ideal.tanh (rowdot (fun k => enh (at2 (arrX m c) (j 0).val k)) (fun k => at2 (argW m c) k (j 1).val) + arrB m c (ix2 0 (j 1)))
  rw [hj0, hj1]
  rfl

/-- An index of the flattened result lies in point t's block iff each coordinate is in the block's range. -/
theorem mem_blk (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_call0_v6).slice (win0_4.rect t)).set ↔ _
  rw [View.set_slice_whole, Rect.mem_set_unit]
  exact Iff.rfl

/-- Row r of the flattened result is written by the last-tile point of row block r / 512. -/
theorem cover (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 128 := N_0
  let t : Fin cfg0.N := ⟨4 * ((i 0).val / 512) + 3, by rw [hN]; omega⟩
  have ht : t.val = 4 * ((i 0).val / 512) + 3 := rfl
  refine ⟨t, (flush0_4 t).mpr (by rw [ht]; omega), ?_⟩
  rw [mem_blk]
  intro a
  match a with
  | ⟨0, _⟩ =>
    show win0_4.index t 0 * 512 ≤ (i 0).val ∧ (i 0).val < win0_4.index t 0 * 512 + 512
    rw [(index4 t).1, ht]; omega
  | ⟨1, _⟩ =>
    show win0_4.index t 1 * 2048 ≤ (i 1).val ∧ (i 1).val < win0_4.index t 1 * 2048 + 2048
    rw [(index4 t).2]; omega

/-- After the run the output window's array is the flattened result. -/
theorem final (c : Dev nD) : (dats m 0 c).arrAt 4 cfg0.N = res2 m c :=
  (dats m 0 c).arrAt_eq_of_cover 4 (res2 m c) (flushed_eq m c) cover

/-- The closing reshape of the flattened result is the specification's result of the three arguments. -/
theorem tail_eq (c : Dev nD) :
    Pipeline.afterTail₀ cfgs (dats m) 0 (V0 m) [hostOps1] c main_v0 = G (argX m c) (argW m c) (argB m c) := by
  unfold Pipeline.afterTail₀
  show StableHlo.after hostOps1 _ (Proc.devRef .tc main_v0) = _
  after_results
  refine Eq.trans ?_ (Ref.G2_reshape (argX m c) (argW m c) (argB m c) shapeCasts_S16x1024x2048_S16384x2048 shapeCasts_S2048_S1x2048
    shapeCasts_S16384x2048_S16x1024x2048)
  refine congrArg (fun z => shapeCast S16x1024x2048 z shapeCasts_S16384x2048_S16x1024x2048) ?_
  refine ((Pipeline.withArrays_arr spec0 launch0.win.arr_inj c _ _ 4).trans (final m c)).trans ?_
  show G2 (arrX m c) (argW m c) (arrB m c) = _
  rw [arrX_eq, arrB_eq]

/-- THE KERNEL'S RUN, READ: every weakly fair execution ends with the result array at the specification's G of the
    arguments and the arguments as launched. -/
theorem run : θ_run defs (onTc (τ := τ) (main (F := Ideal))) ⟨m, fun _ => 0, ρ⟩ fun r => ∀ c : Dev nD,
      r.2.mem ((c.tc : Thread nD τ).loc main_v0) = G (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.QuantumProj.Kernel

end
-- ==== Proof.lean ====
/-
  The kernel computes a dense layer over quantum-inspired features and the reference computes the same layer with
  one matrix product; over the extended reals the two agree entry by entry.

  For input x[16,1024,2048], weight W[4096,2048] and bias b[2048], let e = tanh(2πx) + 0.1·(sin(2πx)·cos(2πx·½)).
  The reference joins e with its square e·e along the last axis, contracts the 4096 features against W, adds b and
  applies tanh.  The kernel flattens x to 16384 rows, splits W into its upper and lower 2048 rows, and on a grid of
  32 row blocks × 4 column tiles accumulates, tile by tile, e·W_upper plus (e·e)·W_lower into a block that it
  clears at tile 0 and turns into tanh(block + b) at tile 3.  The narrowing of the matrix operands to bf16 is the
  identity over the extended reals; the four tiles of a row's inner product add up to the whole inner product
  because extended-real addition is commutative and associative (no finiteness is used); every literal is the same
  binary word on both sides.

  Both results are shown equal to one function G of the arguments (Proof/Spec.lean): the kernel's by reading the
  accumulator after each grid point (Proof/KPieces, KBlocks, Payload, KInduct) and the output array after the run
  through the closing reshape (Proof/KFinal); the reference's by reading its operations at an index
  (Proof/RefValue).  The three frames are the programs' runs with the results dropped; the idealization rewrote
  nothing, so there is nothing to preserve.
-/
import proofs.«101470_j68006512165050_1_alg».proof.Defs
import proofs.«101470_j68006512165050_1_alg».proof.Proof.Gen.Kernel
import proofs.«101470_j68006512165050_1_alg».proof.Proof.Gen.Kernel.Frame
import proofs.«101470_j68006512165050_1_alg».proof.Proof.Gen.KernelIdeal
import proofs.«101470_j68006512165050_1_alg».proof.Proof.Gen.KernelIdeal.Frame
import proofs.«101470_j68006512165050_1_alg».proof.Proof.Gen.ReferenceIdeal
import proofs.«101470_j68006512165050_1_alg».proof.Proof.Gen.ReferenceIdeal.Run
import proofs.«101470_j68006512165050_1_alg».proof.Proof.Gen.ReferenceIdeal.Read
import proofs.«101470_j68006512165050_1_alg».proof.Proof.Gen.Pre_finite_inputs
import proofs.«101470_j68006512165050_1_alg».proof.Proof.KFinal
import proofs.«101470_j68006512165050_1_alg».proof.Proof.RefValue
import Idealize.ShloMosaic.Adequacy
import Idealize.ShloMosaic.Init

noncomputable section

namespace Cert.Proof

open Idealize.ShloMosaic Idealize.ShloMosaic.TcCoe Idealize.SL.Sem

/-- The kernel runs to the end without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From arguments that agree, both programs end with the result array at G of the arguments. -/
theorem algebraic : Cert.algebraic_KernelIdeal_ReferenceIdeal := by
  intro m ρ m' ρ' _ hagree
  refine ⟨fun c => Cert.QuantumProj.G (Cert.QuantumProj.Kernel.argX m c) (Cert.QuantumProj.Kernel.argW m c)
    (Cert.QuantumProj.Kernel.argB m c), Cert.QuantumProj.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.QuantumProj.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
